-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x32 .f32) (main_arg1 : FVec F S8192x8192 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x32 : Shape := ⟨2, ![8192, 32]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x8192 : Shape := ⟨2, ![128, 8192]⟩
abbrev S128x32 : Shape := ⟨2, ![128, 32]⟩
abbrev S128x1 : Shape := ⟨2, ![128, 1]⟩
abbrev S128 : Shape := ⟨1, ![128]⟩
abbrev S1 : Shape := ⟨1, ![1]⟩

abbrev nBuf : Space → Nat
  | .hbm => 11
  | .vmem => 9
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x32, .f32⟩
  | .local _ .vmem, ⟨3, _⟩ => ⟨S128x32, .f32⟩
  | .local _ .vmem, ⟨4, _⟩ => ⟨S8192x32, .f32⟩
  | .local _ .vmem, ⟨5, _⟩ => ⟨S128x1, .f32⟩
  | .local _ .vmem, ⟨6, _⟩ => ⟨S128x1, .f32⟩
  | .local _ .vmem, ⟨7, _⟩ => ⟨S1x8192, .f32⟩
  | .local _ .vmem, ⟨8, _⟩ => ⟨S1x1, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  reducesTo_S8192x32_S8192_d1 : S8192x32.ReducesTo [1] S8192
  h_S_ : 0 < S_.numel
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  dot_S128x32_S8192x32_S128x8192_1_1_0_0_n_n_wf : DotDims.WF S128x32 S8192x32 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S8192x32.size a
  hwx0_1 : ∀ i : grid0.Coords, EltTy.bits .f32 = 32 ∨ (Rect.block (s := S8192x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .f32 = 32 ∨ (Rect.block (s := S8192x32) S8192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S128x32_S8192x32_S128x8192_1_1_0_0_n_n : DotDims S128x32 S8192x32 S128x8192 where
  lhsContracting := [1]
  rhsContracting := [1]
  lhsNonContracting := [0]
  rhsNonContracting := [0]
  lhsBatch := []
  rhsBatch := []
  wf := dot_S128x32_S8192x32_S128x8192_1_1_0_0_n_n_wf

abbrev win0_0 : Pipeline.Window sig grid0 :=
  Pipeline.Window.ofSpec (Memref.whole main_arg1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192x8192 : Shape := ⟨2, ![8192, 8192]⟩
abbrev S_ : Shape := ⟨0, ![]⟩
abbrev S8192 : Shape := ⟨1, ![8192]⟩
abbrev S32x8192 : Shape := ⟨2, ![32, 8192]⟩
abbrev S8192x1 : Shape := ⟨2, ![8192, 1]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S32x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x32_S8192_d1 : S8192x32.ReducesTo [1] S8192
  h_S_ : 0 < S_.numel
  transposes_S8192x32_S32x8192_1_0 : S8192x32.Transposes [1, 0] S32x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x32_S32x8192_S8192x8192_1_0_0_1_n_n_wf : DotDims.WF S8192x32 S32x8192 S8192x8192 [1] [0] [0] [1] [] []

variable [Facts₀]

def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.K.Base.lean ====
/-
  The program around its one kernel region, and what the region's windows hold.

  The program squares and row-sums the point matrix on the host (the squared norms, laid out once as a
  column and once as a row), runs the kernel over 64 tiles of 128 rows, and divides the kernel's one-entry
  result by 8192.  This module fixes the contents every buffer has when the region is entered (the host
  lines before it applied to the launch memory), reduces the program to "region, then the three host lines
  after it", names each window's block at a grid point, and shows that an input window's staging buffer
  holds that block at every point, fetched there or not (two of the five input windows are fetched at the
  first point only).  The kernel's one branch, "is this the first tile", is decided over the grid.
-/
import proofs.«149471_j5892695130791_1_alg».proof.Proof.Gen.Kernel.Launch
import proofs.«149471_j5892695130791_1_alg».proof.Proof.Gen.Kernel.Skeleton
import proofs.«149471_j5892695130791_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the five host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two argument arrays are untouched by the host lines before the region. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the entry contents and whose body leaves the block in place: where the window is not
    fetched its block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is tile 0". -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- The one staging buffer of the result window, through which its contents are stated. -/
abbrev VO0_5 : View sig .tc .vmem S1x1 .f32 := (Memref.whole cc0_stg5_0 : Memref sig .tc .vmem S1x1 .f32).view
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)

end Cert.Kernel.Hand

end
-- ==== Proof.K.RunA.lean ====
/-
  The kernel body run once, in the case of the first tile (the running total is reset before it is added to).
-/
import proofs.«149471_j5892695130791_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Tile 0: the branch is taken.  On whole staging memrefs, the five inputs at their blocks and the result buffer at
    anything, the body runs to its end leaving the inputs as they were and the result buffer holding the pieces its
    two stores wrote (the zero entry, then the entry read back plus the tile's sum).  The pieces are found by the run itself. -/
noncomputable def kernelRun0_A (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) :
    { L5 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Hand

end
-- ==== Proof.K.RunB.lean ====
/-
  The kernel body run once, in the case of a later tile (the running total is read back and added to).
-/
import proofs.«149471_j5892695130791_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later tile: the branch is not taken.  On whole staging memrefs, the five inputs at their blocks and the result
    buffer at the running total `xo5`, the body runs to its end leaving the inputs as they were and the result buffer
    holding the piece its one store wrote (the running total plus the tile's sum).  The piece is found by the run itself. -/
noncomputable def kernelRun0_B (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) :
    { L5 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Hand

end
-- ==== Proof.K.Dats.lean ====
/-
  What the kernel leaves in its result buffer point by point, the pipeline's proof data, and the body obligation.

  The result window is one entry wide and is written back only after the last tile, so between tiles its staging
  buffer carries the running total: at tile 0 the body stores zero, reads it back and adds the tile's sum; at every
  later tile it reads back what the tile before left and adds its own sum.  The five input windows hold their blocks.
  Two of them read the same array (the point matrix, once tile by tile and once whole): each holds half of that
  array's share, which is all a window that is only read needs.
-/
import proofs.«149471_j5892695130791_1_alg».proof.Proof.K.RunA
import proofs.«149471_j5892695130791_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At tile 0 the body's two stores into the one-entry result buffer cover it. -/
theorem cover0_A_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) (y : S1x1.Idx) :
    ∃ pc ∈ (kernelRun0_A c i arg1 harg1 arg2 harg2 arg3 harg3 arg4 harg4 arg5 harg5 arg6 harg6 hc0 x0 x1 x2 x3 x4).1, y ∈ pc.1.set :=
  View.cover_of_tiledL (kernelRun0_A c i arg1 harg1 arg2 harg2 arg3 harg3 arg4 harg4 arg5 harg5 arg6 harg6 hc0 x0 x1 x2 x3 x4).1 S1x1.size (by sl_kernel_rfl) y

/-- What tile 0 leaves in the result buffer: its stores read back. -/
def out0_A_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) : Vec F S1x1 .f32 :=
  VO0_5.read (Elt F) (VO0_5.writes (Elt F) VO0_5.junk (kernelRun0_A c i arg1 harg1 arg2 harg2 arg3 harg3 arg4 harg4 arg5 harg5 arg6 harg6 hc0 x0 x1 x2 x3 x4).1)

/-- At a later tile the body's one store into the result buffer covers it. -/
theorem cover0_B_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) (y : S1x1.Idx) :
    ∃ pc ∈ (kernelRun0_B c i arg1 harg1 arg2 harg2 arg3 harg3 arg4 harg4 arg5 harg5 arg6 harg6 hc0 x0 x1 x2 x3 x4 xo5).1, y ∈ pc.1.set :=
  View.cover_of_tiledL (kernelRun0_B c i arg1 harg1 arg2 harg2 arg3 harg3 arg4 harg4 arg5 harg5 arg6 harg6 hc0 x0 x1 x2 x3 x4 xo5).1 S1x1.size (by sl_kernel_rfl) y

/-- What a later tile leaves in the result buffer, over the running total `xo5` it found there. -/
def out0_B_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 hc0 x0 x1 x2 x3 x4 xo5).1)

/-! ## The running total, point by point -/

/-- A point after the first is not tile 0. -/
theorem ncond_succ (n : ℕ) (hn : n + 1 < cfg0.N) : ¬cond0_0 (grid0.coords ⟨n + 1, hn⟩) := fun h => by
  have h1 := (hcond0_0 ⟨n + 1, hn⟩).mp h
  have hN : n + 1 < 64 := lt_of_lt_of_eq hn (show cfg0.N = 64 from N_0)
  dsimp only at h1; omega

/-- What the result buffer holds after the body at point `n`: tile 0's contents at the first point, and at every
    later point that tile's contents over what the point before left. -/
def outsAt0 (c : Dev nD) : (n : ℕ) → n < cfg0.N → Vec F S1x1 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn => out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ncond_succ n hn) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- The running total at the first point. -/
theorem outsAt0_A (c : Dev nD) (t : Fin cfg0.N) (h0 : t.val % 64 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  have hN : n < 64 := lt_of_lt_of_eq hn (show cfg0.N = 64 from N_0)
  cases n with
  | zero => exact rfl
  | succ n => exact (by exfalso; dsimp only at h0; omega)

/-- The running total at a later point, over what the point before left. -/
theorem outsAt0_B (c : Dev nD) (t : Fin cfg0.N) (h0 : ¬t.val % 64 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the one pipeline on core `c`: the arrays as the region finds them; after the body at point `t`
    each input's buffer at its block and the result buffer at the running total; the region's invariant is the class's
    (the scoped rest and the generator register); nothing is owed; the two windows on the point matrix hold one half
    of its share each, every other input the whole share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point the result buffer holds what the body left at the point before: the point is not the first and
    the buffer was not written back in between (it is written back after the last point only). -/
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first point the run of tile 0 applies, the
    result buffer holding anything; at a later point the result buffer holds what the point before left and the run
    of a later tile applies; the invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 64 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Around.lean ====
/-
  The launch: from the body obligation to the run of the whole program.

  Two of the kernel's input windows read one array, the point matrix.  The pipeline needs of an input array only a
  share (its blocks are copied out of it, never into it), so the array's full points-to is split into two halves at
  the region's entry, one per window, and both halves come back unchanged at its exit.  The result window's array
  is held whole.  After the region three host lines reshape the one-entry result, write the word of 8192.0 and
  divide: they run holding the result array and the three buffers they write, and leave every other buffer alone.
  The run ends with every array of the pipeline at what the proof data say (an input its entry contents, the result
  array what the last point wrote back) and every other buffer at the contents after the three lines.
-/
import proofs.«149471_j5892695130791_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP ΦA)

/-! ## The arrays, window by window -/

/-- The proof data's arrays as a chain of points-tos, each window's array at the share the data give it. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc (Pipeline.arrRef spec0 0)) ↦{fullShare} A 0)
          ∗ (((c.tc : Thread nD τ).loc (Pipeline.arrRef spec0 1)) ↦{fullShare.left} A 1)
          ∗ (((c.tc : Thread nD τ).loc (Pipeline.arrRef spec0 2)) ↦{fullShare.right} A 2)
          ∗ (((c.tc : Thread nD τ).loc (Pipeline.arrRef spec0 3)) ↦{fullShare} A 3)
          ∗ (((c.tc : Thread nD τ).loc (Pipeline.arrRef spec0 4)) ↦{fullShare} A 4)
          ∗ (((c.tc : Thread nD τ).loc (Pipeline.arrRef spec0 5)) ↦{fullShare} A 5)) := by
  unfold Dat.arrays
  rw [bigSep_W0, (arr_whole0 0).set_eq_univ, (arr_whole0 1).set_eq_univ,
    (arr_whole0 3).set_eq_univ, (arr_whole0 4).set_eq_univ, (arr_whole0 5).set_eq_univ]
  rfl

/-- At entry every window's array holds the contents the region finds. -/
theorem arrAt_zero (c : Dev nD) (w : Fin cfg0.W) : (dats m 0 c).arrAt w 0 = V m c (Pipeline.arrRef spec0 w) := A_eq m c w

/-- The five distinct buffers behind the six windows' arrays, each whole, as a chain. -/
theorem arrBufs_chain (c : Dev nD) (Vv : (b : Ref sig .tc) → Buf (Elt F) ((c.tc : Thread nD τ).loc b)) :
    (arrBufs (Ix := Unit) (Name := ℕ) (U := UR sig nD τ) (Lvl := ℕ) spec0 c Vv : sProp 𝕄)
      = iprop((((c.tc : Thread nD τ).loc main_arg1) ↦{fullShare} Vv main_arg1)
          ∗ (((c.tc : Thread nD τ).loc main_arg0) ↦{fullShare} Vv main_arg0)
          ∗ (((c.tc : Thread nD τ).loc main_v2) ↦{fullShare} Vv main_v2)
          ∗ (((c.tc : Thread nD τ).loc main_v3) ↦{fullShare} Vv main_v3)
          ∗ (((c.tc : Thread nD τ).loc main_v4) ↦{fullShare} Vv main_v4)) := by
  unfold Pipeline.arrBufs
  exact bigSep_eq_bigSepL_of_eq [main_arg1, main_arg0, main_v2, main_v3, main_v4] (by decide) (by decide) _

/-- ENTRY: the five distinct buffers behind the six windows' arrays, whole at the entry contents, make the proof
    data's arrays; the point matrix's points-to is split into its two halves. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrays_chain, arrBufs_chain]
  simp only [arrAt_zero]
  iintro ⟨H1, H0, H2, H3, H4⟩
  ihave H0' := (pointsTo_share (PosShare.mem_left_op_right fullShare)).1 $$ H0
  icases H0' with ⟨Hl, Hr⟩
  isplitl [H1]; · iexact H1
  isplitl [Hl]; · iexact Hl
  isplitl [Hr]; · iexact Hr
  isplitl [H2]; · iexact H2
  isplitl [H3]; · iexact H3
  iexact H4

/-! ## The lines after the region -/

/-- The four buffers the three lines after the region touch: the result array, which they read, and the three
    buffers they write. -/
abbrev tailL : List (DevRef τ sig) :=
  [Proc.devRef .tc main_v4, Proc.devRef .tc main_v5, Proc.devRef .tc main_cst_0, Proc.devRef .tc main_v6]

/-- The buffers' contents at the region's exit: as at its entry, but the result array at what the last point wrote back. -/
def Wexit (c : Dev nD) : Valuation τ sig (Elt F) :=
  Function.update (V0 m c) (Proc.devRef .tc main_v4) ((dats m 0 c).arrAt 5 cfg0.N)

/-- The buffers' contents after the three lines. -/
abbrev Wfin (c : Dev nD) : Valuation τ sig (Elt F) := StableHlo.after (List.flatten [hostOps1]) (Wexit m c)
/-- The same read at a TensorCore reference. -/
abbrev Vfin (c : Dev nD) (b : Ref sig .tc) : Buf (Elt F) ((c : Thread nD τ).loc b) := Wfin m c (Proc.devRef .tc b)

theorem tail_sub : ∀ ops ∈ ([hostOps1] : List (List (HloOp τ sig (Elt F)))), ∀ op ∈ ops, op.bufs ⊆ tailL.toFinset := by
  intro ops hops op hop
  simp only [List.mem_cons, List.mem_nil_iff, _root_.or_false] at hops
  subst hops
  simp only [hostOps1, List.mem_cons, List.mem_nil_iff, _root_.or_false] at hop
  rcases hop with rfl | rfl | rfl
  · rw [StableHlo.reshape_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The three lines write three buffers only. -/
theorem tail_writes : (List.flatten [hostOps1] : List (HloOp τ sig (Elt F))).Forall fun op =>
    op.writes ⊆ (([main_v5, main_cst_0, main_v6] : List (Ref sig .tc)).map (Proc.devRef (τ := τ) .tc)).toFinset := by
  simp only [hostOps1, List.flatten_cons, List.flatten_nil, List.append_nil, List.Forall, StableHlo.reshape_writes,
    StableHlo.nullary_writes, StableHlo.binary_writes]
  refine ⟨?_, ?_, ?_⟩ <;> decide

/-- A buffer the three lines do not write holds after them what it held at the region's exit. -/
theorem Vfin_keep (c : Dev nD) (b : Ref sig .tc) (hb : b ∉ ([main_v5, main_cst_0, main_v6] : List (Ref sig .tc))) :
    Vfin m c b = Wexit m c (Proc.devRef .tc b) :=
  StableHlo.after_of_writes_sub _ _ tail_writes hb

theorem Wexit_v4 (c : Dev nD) : Wexit m c (Proc.devRef .tc main_v4) = (dats m 0 c).arrAt 5 cfg0.N := by
  unfold Wexit; exact Function.update_self _ _ _
theorem Wexit_ne (c : Dev nD) (b : Ref sig .tc) (hb : b ≠ main_v4) : Wexit m c (Proc.devRef .tc b) = V m c b := by
  unfold Wexit; exact Function.update_of_ne (StableHlo.devRef_ne_of_ne hb) _ _

theorem Vfin_v4 (c : Dev nD) : Vfin m c main_v4 = (dats m 0 c).arrAt 5 cfg0.N :=
  (Vfin_keep m c main_v4 (by decide)).trans (Wexit_v4 m c)
theorem Vfin_v0 (c : Dev nD) : Vfin m c main_v0 = V m c main_v0 := (Vfin_keep m c main_v0 (by decide)).trans (Wexit_ne m c main_v0 (by decide))
theorem Vfin_cst (c : Dev nD) : Vfin m c main_cst = V m c main_cst := (Vfin_keep m c main_cst (by decide)).trans (Wexit_ne m c main_cst (by decide))
theorem Vfin_v1 (c : Dev nD) : Vfin m c main_v1 = V m c main_v1 := (Vfin_keep m c main_v1 (by decide)).trans (Wexit_ne m c main_v1 (by decide))

/-- The four buffers held at a valuation, as a chain. -/
theorem held_tail (c : Dev nD) (W : Valuation τ sig (Elt F)) :
    (StableHlo.held (c.tc : Thread nD τ) tailL.toFinset W : sProp 𝕄)
      = iprop((((c.tc : Thread nD τ).loc main_v4) ↦{fullShare} W (Proc.devRef .tc main_v4))
          ∗ (((c.tc : Thread nD τ).loc main_v5) ↦{fullShare} W (Proc.devRef .tc main_v5))
          ∗ (((c.tc : Thread nD τ).loc main_cst_0) ↦{fullShare} W (Proc.devRef .tc main_cst_0))
          ∗ (((c.tc : Thread nD τ).loc main_v6) ↦{fullShare} W (Proc.devRef .tc main_v6))) := by
  unfold StableHlo.held
  rw [bigSep_eq_bigSepL tailL (by decide)]
  rfl

/-- At the region's exit the four buffers are held at the exit contents. -/
theorem held_tail_exit (c : Dev nD) :
    iprop((((c.tc : Thread nD τ).loc main_v4) ↦{fullShare} (dats m 0 c).arrAt 5 cfg0.N)
        ∗ (((c.tc : Thread nD τ).loc main_v5) ↦{fullShare} V m c main_v5)
        ∗ (((c.tc : Thread nD τ).loc main_cst_0) ↦{fullShare} V m c main_cst_0)
        ∗ (((c.tc : Thread nD τ).loc main_v6) ↦{fullShare} V m c main_v6))
      ⊢ (StableHlo.held (c.tc : Thread nD τ) tailL.toFinset (Wexit m c) : sProp 𝕄) := by
  rw [held_tail, Wexit_v4, Wexit_ne m c main_v5 (by decide), Wexit_ne m c main_cst_0 (by decide), Wexit_ne m c main_v6 (by decide)]

set_option backward.isDefEq.respectTransparency.types false in
/-- EXIT TO END: from the region's exit — the arrays at their final contents, every other buffer as at entry — the
    three lines run, holding the result array and the buffers they write, and hand back the arrays as they were and
    the other buffers at the contents after the lines. -/
theorem htail (c : Dev nD) (Q' : PUnit → sProp 𝕄) :
    iprop((iprop((dats m 0 c).arrays ((dats m 0 c).arrAt · cfg0.N) ∗ unscopedRestP Pipeline.Prefetch.none spec0 c (Vfin m c)) -∗ Q' ⟨⟩)
        ∗ boundary (c.tc : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain, Pipeline.unscopedRestP_none, Pipeline.unscopedRestP_none, unscopedRest0_eq c (V m c), unscopedRest0_eq c (Vfin m c),
    Vfin_v0, Vfin_cst, Vfin_v1]
  iintro ⟨Hk, Hb, ⟨A0, A1, A2, A3, A4, A5⟩, ⟨R0, Rc, R1, R5, Rc0, R6⟩⟩
  ihave Hh := (held_tail_exit m c) $$ [A5 R5 Rc0 R6]
  · isplitl [A5]; · iexact A5
    isplitl [R5]; · iexact R5
    isplitl [Rc0]; · iexact Rc0
    iexact R6
  ihave Hrun := (Pipeline.wp_seqs_then (fun q => (cfgs q).toPCfg (Val := Elt F)) defs₀ Variants.none c tailL.toFinset [] [hostOps1] tail_sub tail_fresh (Wexit m c) (K := Q')) $$ [Hb Hh]
  · isplitl [Hb] <;> iassumption
  iapply Hrun
  iintro Hb
  rw [Pipeline.chain_nil, wp_pure, held_tail]
  imodintro
  iapply Hk
  icases Hb with ⟨-, T4, T5, Tc0, T6⟩
  isplitl [A0 A1 A2 A3 A4 T4]
  · isplitl [A0]; · iexact A0
    isplitl [A1]; · iexact A1
    isplitl [A2]; · iexact A2
    isplitl [A3]; · iexact A3
    isplitl [A4]; · iexact A4
    rw [← Vfin_v4 m c]; iexact T4
  isplitl [R0]; · iexact R0
  isplitl [Rc]; · iexact Rc
  isplitl [R1]; · iexact R1
  isplitl [T5]; · iexact T5
  isplitl [Tc0]; · iexact Tc0
  iexact T6

/-! ## The run -/

/-- What the run ends in: every array of the pipeline at the proof data's final contents, every other unscoped buffer
    at its contents after the three lines. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Vfin m c b

set_option backward.isDefEq.respectTransparency.types false in
/-- From any memory with zero counters, every weakly fair execution of the program on the TensorCores terminates
    without a fault, in a state of `RunPost`. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ ΦA spec0 c
      unfold Pipeline.ΦA; iintro ⟨Hp, -, Hr⟩
      isplitl [Hr] <;> iassumption)
    (hout := fun c => by
      show ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨(h c).1, (h c).2.2⟩)

end Cert.Kernel.Hand

end
-- ==== Proof.K.Frame.lean ====
/-
  The frame: the program runs to its end without a fault and leaves its two argument arrays as they were.

  Both arguments are arrays of input windows of the kernel, which the pipeline only copies out of; and the host lines
  around the region write neither.
-/
import proofs.«149471_j5892695130791_1_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters every weakly fair execution of the program terminates without a fault, the
    point matrix and the weight matrix unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c)))⟩)
    (run_main m ρ)

end Cert.Kernel.Hand

end
-- ==== Proof.KI.Base.lean ====
/-
  The program around its one kernel region, and what the region's windows hold.

  The program squares and row-sums the point matrix on the host (the squared norms, laid out once as a
  column and once as a row), runs the kernel over 64 tiles of 128 rows, and divides the kernel's one-entry
  result by 8192.  This module fixes the contents every buffer has when the region is entered (the host
  lines before it applied to the launch memory), reduces the program to "region, then the three host lines
  after it", names each window's block at a grid point, and shows that an input window's staging buffer
  holds that block at every point, fetched there or not (two of the five input windows are fetched at the
  first point only).  The kernel's one branch, "is this the first tile", is decided over the grid.
-/
import proofs.«149471_j5892695130791_1_alg».proof.Proof.Gen.KernelIdeal.Launch
import proofs.«149471_j5892695130791_1_alg».proof.Proof.Gen.KernelIdeal.Skeleton
import proofs.«149471_j5892695130791_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the five host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the
    region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two argument arrays are untouched by the host lines before the region. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the entry contents and whose body leaves the block in place: where the window is not
    fetched its block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is tile 0". -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- The one staging buffer of the result window, through which its contents are stated. -/
abbrev VO0_5 : View sig .tc .vmem S1x1 .f32 := (Memref.whole cc0_stg5_0 : Memref sig .tc .vmem S1x1 .f32).view
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)

end Cert.KernelIdeal.Hand

end
-- ==== Proof.KI.RunA.lean ====
/-
  The kernel body run once, in the case of the first tile (the running total is reset before it is added to).
-/
import proofs.«149471_j5892695130791_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Tile 0: the branch is taken.  On whole staging memrefs, the five inputs at their blocks and the result buffer at
    anything, the body runs to its end leaving the inputs as they were and the result buffer holding the pieces its
    two stores wrote (the zero entry, then the entry read back plus the tile's sum).  The pieces are found by the run itself. -/
noncomputable def kernelRun0_A (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) :
    { L5 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Hand

end
-- ==== Proof.KI.RunB.lean ====
/-
  The kernel body run once, in the case of a later tile (the running total is read back and added to).
-/
import proofs.«149471_j5892695130791_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later tile: the branch is not taken.  On whole staging memrefs, the five inputs at their blocks and the result
    buffer at the running total `xo5`, the body runs to its end leaving the inputs as they were and the result buffer
    holding the piece its one store wrote (the running total plus the tile's sum).  The piece is found by the run itself. -/
noncomputable def kernelRun0_B (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) :
    { L5 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__kernel i arg1 harg1 arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Hand

end
-- ==== Proof.KI.Dats.lean ====
/-
  What the kernel leaves in its result buffer point by point, the pipeline's proof data, and the body obligation.

  The result window is one entry wide and is written back only after the last tile, so between tiles its staging
  buffer carries the running total: at tile 0 the body stores zero, reads it back and adds the tile's sum; at every
  later tile it reads back what the tile before left and adds its own sum.  The five input windows hold their blocks.
  Two of them read the same array (the point matrix, once tile by tile and once whole): each holds half of that
  array's share, which is all a window that is only read needs.
-/
import proofs.«149471_j5892695130791_1_alg».proof.Proof.KI.RunA
import proofs.«149471_j5892695130791_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At tile 0 the body's two stores into the one-entry result buffer cover it. -/
theorem cover0_A_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) (y : S1x1.Idx) :
    ∃ pc ∈ (kernelRun0_A c i arg1 harg1 arg2 harg2 arg3 harg3 arg4 harg4 arg5 harg5 arg6 harg6 hc0 x0 x1 x2 x3 x4).1, y ∈ pc.1.set :=
  View.cover_of_tiledL (kernelRun0_A c i arg1 harg1 arg2 harg2 arg3 harg3 arg4 harg4 arg5 harg5 arg6 harg6 hc0 x0 x1 x2 x3 x4).1 S1x1.size (by sl_kernel_rfl) y

/-- What tile 0 leaves in the result buffer: its stores read back. -/
def out0_A_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) : Vec F S1x1 .f32 :=
  VO0_5.read (Elt F) (VO0_5.writes (Elt F) VO0_5.junk (kernelRun0_A c i arg1 harg1 arg2 harg2 arg3 harg3 arg4 harg4 arg5 harg5 arg6 harg6 hc0 x0 x1 x2 x3 x4).1)

/-- At a later tile the body's one store into the result buffer covers it. -/
theorem cover0_B_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) (y : S1x1.Idx) :
    ∃ pc ∈ (kernelRun0_B c i arg1 harg1 arg2 harg2 arg3 harg3 arg4 harg4 arg5 harg5 arg6 harg6 hc0 x0 x1 x2 x3 x4 xo5).1, y ∈ pc.1.set :=
  View.cover_of_tiledL (kernelRun0_B c i arg1 harg1 arg2 harg2 arg3 harg3 arg4 harg4 arg5 harg5 arg6 harg6 hc0 x0 x1 x2 x3 x4 xo5).1 S1x1.size (by sl_kernel_rfl) y

/-- What a later tile leaves in the result buffer, over the running total `xo5` it found there. -/
def out0_B_5 (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 hc0 x0 x1 x2 x3 x4 xo5).1)

/-! ## The running total, point by point -/

/-- A point after the first is not tile 0. -/
theorem ncond_succ (n : ℕ) (hn : n + 1 < cfg0.N) : ¬cond0_0 (grid0.coords ⟨n + 1, hn⟩) := fun h => by
  have h1 := (hcond0_0 ⟨n + 1, hn⟩).mp h
  have hN : n + 1 < 64 := lt_of_lt_of_eq hn (show cfg0.N = 64 from N_0)
  dsimp only at h1; omega

/-- What the result buffer holds after the body at point `n`: tile 0's contents at the first point, and at every
    later point that tile's contents over what the point before left. -/
def outsAt0 (c : Dev nD) : (n : ℕ) → n < cfg0.N → Vec F S1x1 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn => out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ncond_succ n hn) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- The running total at the first point. -/
theorem outsAt0_A (c : Dev nD) (t : Fin cfg0.N) (h0 : t.val % 64 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  have hN : n < 64 := lt_of_lt_of_eq hn (show cfg0.N = 64 from N_0)
  cases n with
  | zero => exact rfl
  | succ n => exact (by exfalso; dsimp only at h0; omega)

/-- The running total at a later point, over what the point before left. -/
theorem outsAt0_B (c : Dev nD) (t : Fin cfg0.N) (h0 : ¬t.val % 64 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the one pipeline on core `c`: the arrays as the region finds them; after the body at point `t`
    each input's buffer at its block and the result buffer at the running total; the region's invariant is the class's
    (the scoped rest and the generator register); nothing is owed; the two windows on the point matrix hold one half
    of its share each, every other input the whole share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point the result buffer holds what the body left at the point before: the point is not the first and
    the buffer was not written back in between (it is written back after the last point only). -/
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first point the run of tile 0 applies, the
    result buffer holding anything; at a later point the result buffer holds what the point before left and the run
    of a later tile applies; the invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 64 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Around.lean ====
/-
  The launch: from the body obligation to the run of the whole program.

  Two of the kernel's input windows read one array, the point matrix.  The pipeline needs of an input array only a
  share (its blocks are copied out of it, never into it), so the array's full points-to is split into two halves at
  the region's entry, one per window, and both halves come back unchanged at its exit.  The result window's array
  is held whole.  After the region three host lines reshape the one-entry result, write the word of 8192.0 and
  divide: they run holding the result array and the three buffers they write, and leave every other buffer alone.
  The run ends with every array of the pipeline at what the proof data say (an input its entry contents, the result
  array what the last point wrote back) and every other buffer at the contents after the three lines.
-/
import proofs.«149471_j5892695130791_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP ΦA)

/-! ## The arrays, window by window -/

/-- The proof data's arrays as a chain of points-tos, each window's array at the share the data give it. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc (Pipeline.arrRef spec0 0)) ↦{fullShare} A 0)
          ∗ (((c.tc : Thread nD τ).loc (Pipeline.arrRef spec0 1)) ↦{fullShare.left} A 1)
          ∗ (((c.tc : Thread nD τ).loc (Pipeline.arrRef spec0 2)) ↦{fullShare.right} A 2)
          ∗ (((c.tc : Thread nD τ).loc (Pipeline.arrRef spec0 3)) ↦{fullShare} A 3)
          ∗ (((c.tc : Thread nD τ).loc (Pipeline.arrRef spec0 4)) ↦{fullShare} A 4)
          ∗ (((c.tc : Thread nD τ).loc (Pipeline.arrRef spec0 5)) ↦{fullShare} A 5)) := by
  unfold Dat.arrays
  rw [bigSep_W0, (arr_whole0 0).set_eq_univ, (arr_whole0 1).set_eq_univ,
    (arr_whole0 3).set_eq_univ, (arr_whole0 4).set_eq_univ, (arr_whole0 5).set_eq_univ]
  rfl

/-- At entry every window's array holds the contents the region finds. -/
theorem arrAt_zero (c : Dev nD) (w : Fin cfg0.W) : (dats m 0 c).arrAt w 0 = V m c (Pipeline.arrRef spec0 w) := A_eq m c w

/-- The five distinct buffers behind the six windows' arrays, each whole, as a chain. -/
theorem arrBufs_chain (c : Dev nD) (Vv : (b : Ref sig .tc) → Buf (Elt F) ((c.tc : Thread nD τ).loc b)) :
    (arrBufs (Ix := Unit) (Name := ℕ) (U := UR sig nD τ) (Lvl := ℕ) spec0 c Vv : sProp 𝕄)
      = iprop((((c.tc : Thread nD τ).loc main_arg1) ↦{fullShare} Vv main_arg1)
          ∗ (((c.tc : Thread nD τ).loc main_arg0) ↦{fullShare} Vv main_arg0)
          ∗ (((c.tc : Thread nD τ).loc main_v2) ↦{fullShare} Vv main_v2)
          ∗ (((c.tc : Thread nD τ).loc main_v3) ↦{fullShare} Vv main_v3)
          ∗ (((c.tc : Thread nD τ).loc main_v4) ↦{fullShare} Vv main_v4)) := by
  unfold Pipeline.arrBufs
  exact bigSep_eq_bigSepL_of_eq [main_arg1, main_arg0, main_v2, main_v3, main_v4] (by decide) (by decide) _

/-- ENTRY: the five distinct buffers behind the six windows' arrays, whole at the entry contents, make the proof
    data's arrays; the point matrix's points-to is split into its two halves. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrays_chain, arrBufs_chain]
  simp only [arrAt_zero]
  iintro ⟨H1, H0, H2, H3, H4⟩
  ihave H0' := (pointsTo_share (PosShare.mem_left_op_right fullShare)).1 $$ H0
  icases H0' with ⟨Hl, Hr⟩
  isplitl [H1]; · iexact H1
  isplitl [Hl]; · iexact Hl
  isplitl [Hr]; · iexact Hr
  isplitl [H2]; · iexact H2
  isplitl [H3]; · iexact H3
  iexact H4

/-! ## The lines after the region -/

/-- The four buffers the three lines after the region touch: the result array, which they read, and the three
    buffers they write. -/
abbrev tailL : List (DevRef τ sig) :=
  [Proc.devRef .tc main_v4, Proc.devRef .tc main_v5, Proc.devRef .tc main_cst_0, Proc.devRef .tc main_v6]

/-- The buffers' contents at the region's exit: as at its entry, but the result array at what the last point wrote back. -/
def Wexit (c : Dev nD) : Valuation τ sig (Elt F) :=
  Function.update (V0 m c) (Proc.devRef .tc main_v4) ((dats m 0 c).arrAt 5 cfg0.N)

/-- The buffers' contents after the three lines. -/
abbrev Wfin (c : Dev nD) : Valuation τ sig (Elt F) := StableHlo.after (List.flatten [hostOps1]) (Wexit m c)
/-- The same read at a TensorCore reference. -/
abbrev Vfin (c : Dev nD) (b : Ref sig .tc) : Buf (Elt F) ((c : Thread nD τ).loc b) := Wfin m c (Proc.devRef .tc b)

theorem tail_sub : ∀ ops ∈ ([hostOps1] : List (List (HloOp τ sig (Elt F)))), ∀ op ∈ ops, op.bufs ⊆ tailL.toFinset := by
  intro ops hops op hop
  simp only [List.mem_cons, List.mem_nil_iff, _root_.or_false] at hops
  subst hops
  simp only [hostOps1, List.mem_cons, List.mem_nil_iff, _root_.or_false] at hop
  rcases hop with rfl | rfl | rfl
  · rw [StableHlo.reshape_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The three lines write three buffers only. -/
theorem tail_writes : (List.flatten [hostOps1] : List (HloOp τ sig (Elt F))).Forall fun op =>
    op.writes ⊆ (([main_v5, main_cst_0, main_v6] : List (Ref sig .tc)).map (Proc.devRef (τ := τ) .tc)).toFinset := by
  simp only [hostOps1, List.flatten_cons, List.flatten_nil, List.append_nil, List.Forall, StableHlo.reshape_writes,
    StableHlo.nullary_writes, StableHlo.binary_writes]
  refine ⟨?_, ?_, ?_⟩ <;> decide

/-- A buffer the three lines do not write holds after them what it held at the region's exit. -/
theorem Vfin_keep (c : Dev nD) (b : Ref sig .tc) (hb : b ∉ ([main_v5, main_cst_0, main_v6] : List (Ref sig .tc))) :
    Vfin m c b = Wexit m c (Proc.devRef .tc b) :=
  StableHlo.after_of_writes_sub _ _ tail_writes hb

theorem Wexit_v4 (c : Dev nD) : Wexit m c (Proc.devRef .tc main_v4) = (dats m 0 c).arrAt 5 cfg0.N := by
  unfold Wexit; exact Function.update_self _ _ _
theorem Wexit_ne (c : Dev nD) (b : Ref sig .tc) (hb : b ≠ main_v4) : Wexit m c (Proc.devRef .tc b) = V m c b := by
  unfold Wexit; exact Function.update_of_ne (StableHlo.devRef_ne_of_ne hb) _ _

theorem Vfin_v4 (c : Dev nD) : Vfin m c main_v4 = (dats m 0 c).arrAt 5 cfg0.N :=
  (Vfin_keep m c main_v4 (by decide)).trans (Wexit_v4 m c)
theorem Vfin_v0 (c : Dev nD) : Vfin m c main_v0 = V m c main_v0 := (Vfin_keep m c main_v0 (by decide)).trans (Wexit_ne m c main_v0 (by decide))
theorem Vfin_cst (c : Dev nD) : Vfin m c main_cst = V m c main_cst := (Vfin_keep m c main_cst (by decide)).trans (Wexit_ne m c main_cst (by decide))
theorem Vfin_v1 (c : Dev nD) : Vfin m c main_v1 = V m c main_v1 := (Vfin_keep m c main_v1 (by decide)).trans (Wexit_ne m c main_v1 (by decide))

/-- The four buffers held at a valuation, as a chain. -/
theorem held_tail (c : Dev nD) (W : Valuation τ sig (Elt F)) :
    (StableHlo.held (c.tc : Thread nD τ) tailL.toFinset W : sProp 𝕄)
      = iprop((((c.tc : Thread nD τ).loc main_v4) ↦{fullShare} W (Proc.devRef .tc main_v4))
          ∗ (((c.tc : Thread nD τ).loc main_v5) ↦{fullShare} W (Proc.devRef .tc main_v5))
          ∗ (((c.tc : Thread nD τ).loc main_cst_0) ↦{fullShare} W (Proc.devRef .tc main_cst_0))
          ∗ (((c.tc : Thread nD τ).loc main_v6) ↦{fullShare} W (Proc.devRef .tc main_v6))) := by
  unfold StableHlo.held
  rw [bigSep_eq_bigSepL tailL (by decide)]
  rfl

/-- At the region's exit the four buffers are held at the exit contents. -/
theorem held_tail_exit (c : Dev nD) :
    iprop((((c.tc : Thread nD τ).loc main_v4) ↦{fullShare} (dats m 0 c).arrAt 5 cfg0.N)
        ∗ (((c.tc : Thread nD τ).loc main_v5) ↦{fullShare} V m c main_v5)
        ∗ (((c.tc : Thread nD τ).loc main_cst_0) ↦{fullShare} V m c main_cst_0)
        ∗ (((c.tc : Thread nD τ).loc main_v6) ↦{fullShare} V m c main_v6))
      ⊢ (StableHlo.held (c.tc : Thread nD τ) tailL.toFinset (Wexit m c) : sProp 𝕄) := by
  rw [held_tail, Wexit_v4, Wexit_ne m c main_v5 (by decide), Wexit_ne m c main_cst_0 (by decide), Wexit_ne m c main_v6 (by decide)]

set_option backward.isDefEq.respectTransparency.types false in
/-- EXIT TO END: from the region's exit — the arrays at their final contents, every other buffer as at entry — the
    three lines run, holding the result array and the buffers they write, and hand back the arrays as they were and
    the other buffers at the contents after the lines. -/
theorem htail (c : Dev nD) (Q' : PUnit → sProp 𝕄) :
    iprop((iprop((dats m 0 c).arrays ((dats m 0 c).arrAt · cfg0.N) ∗ unscopedRestP Pipeline.Prefetch.none spec0 c (Vfin m c)) -∗ Q' ⟨⟩)
        ∗ boundary (c.tc : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain, Pipeline.unscopedRestP_none, Pipeline.unscopedRestP_none, unscopedRest0_eq c (V m c), unscopedRest0_eq c (Vfin m c),
    Vfin_v0, Vfin_cst, Vfin_v1]
  iintro ⟨Hk, Hb, ⟨A0, A1, A2, A3, A4, A5⟩, ⟨R0, Rc, R1, R5, Rc0, R6⟩⟩
  ihave Hh := (held_tail_exit m c) $$ [A5 R5 Rc0 R6]
  · isplitl [A5]; · iexact A5
    isplitl [R5]; · iexact R5
    isplitl [Rc0]; · iexact Rc0
    iexact R6
  ihave Hrun := (Pipeline.wp_seqs_then (fun q => (cfgs q).toPCfg (Val := Elt F)) defs₀ Variants.none c tailL.toFinset [] [hostOps1] tail_sub tail_fresh (Wexit m c) (K := Q')) $$ [Hb Hh]
  · isplitl [Hb] <;> iassumption
  iapply Hrun
  iintro Hb
  rw [Pipeline.chain_nil, wp_pure, held_tail]
  imodintro
  iapply Hk
  icases Hb with ⟨-, T4, T5, Tc0, T6⟩
  isplitl [A0 A1 A2 A3 A4 T4]
  · isplitl [A0]; · iexact A0
    isplitl [A1]; · iexact A1
    isplitl [A2]; · iexact A2
    isplitl [A3]; · iexact A3
    isplitl [A4]; · iexact A4
    rw [← Vfin_v4 m c]; iexact T4
  isplitl [R0]; · iexact R0
  isplitl [Rc]; · iexact Rc
  isplitl [R1]; · iexact R1
  isplitl [T5]; · iexact T5
  isplitl [Tc0]; · iexact Tc0
  iexact T6

/-! ## The run -/

/-- What the run ends in: every array of the pipeline at the proof data's final contents, every other unscoped buffer
    at its contents after the three lines. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Vfin m c b

set_option backward.isDefEq.respectTransparency.types false in
/-- From any memory with zero counters, every weakly fair execution of the program on the TensorCores terminates
    without a fault, in a state of `RunPost`. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ ΦA spec0 c
      unfold Pipeline.ΦA; iintro ⟨Hp, -, Hr⟩
      isplitl [Hr] <;> iassumption)
    (hout := fun c => by
      show ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨(h c).1, (h c).2.2⟩)

end Cert.KernelIdeal.Hand

end
-- ==== Proof.KI.Frame.lean ====
/-
  The frame: the program runs to its end without a fault and leaves its two argument arrays as they were.

  Both arguments are arrays of input windows of the kernel, which the pipeline only copies out of; and the host lines
  around the region write neither.
-/
import proofs.«149471_j5892695130791_1_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters every weakly fair execution of the program terminates without a fault, the
    point matrix and the weight matrix unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c)))⟩)
    (run_main m ρ)

end Cert.KernelIdeal.Hand

end
-- ==== Proof.KI.Pieces.lean ====
/-
  What each case of the body leaves in the result buffer, as the body's own arithmetic.

  The run of a later tile leaves one store, whose value is the body's payload of the six values it loaded: the five
  input blocks and the running total found in the result buffer.  The run of tile 0 leaves two stores, the zero entry
  and then the same payload with the zero entry read back in place of the running total.  Every load and store is
  through the whole buffer, so a load reads the contents and the last store is what the buffer holds.
-/
import proofs.«149471_j5892695130791_1_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rectangles' offset is the origin. -/
theorem hz : (![0, 0] : Fin 2 → Nat) = fun _ => 0 := by
  funext a; match a with | ⟨0, _⟩ => rfl | ⟨1, _⟩ => rfl

/-- A later tile leaves the payload of its loads: the running total it found plus its own sum. -/
theorem out0_B_5_eq (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : ¬cond0_0 i)
    (x0 : Vec F S128x8192 .f32) (x1 : Vec F S128x32 .f32) (x2 : Vec F S8192x32 .f32) (x3 : Vec F S128x1 .f32) (x4 : Vec F S1x8192 .f32) (xo5 : Vec F S1x1 .f32) :
    out0_B_5 c i arg1 harg1 arg2 harg2 arg3 harg3 arg4 harg4 arg5 harg5 arg6 harg6 hc0 x0 x1 x2 x3 x4 xo5 = k0_pay2 x1 x2 x3 x4 x0 xo5 := by
  unfold out0_B_5
  rw [View.read_writes_eq_canon _ _ _ (cover0_B_5 c i arg1 harg1 arg2 harg2 arg3 harg3 arg4 harg4 arg5 harg5 arg6 harg6 hc0 x0 x1 x2 x3 x4 xo5)]
  unfold kernelRun0_B
  dsimp only
  sl_unfold_words
  rw [View.canon_unit_zero (S := S1x1) hz]
  simp only [View.readAt_eq_ld, harg1.read_unread, harg2.read_unread, harg3.read_unread, harg4.read_unread, harg5.read_unread, harg6.read_unread,
    View.ld_unit_zero (S := S128x8192) hz, View.ld_unit_zero (S := S128x32) hz, View.ld_unit_zero (S := S8192x32) hz,
    View.ld_unit_zero (S := S128x1) hz, View.ld_unit_zero (S := S1x8192) hz, View.ld_unit_zero (S := S1x1) hz]

/-- Tile 0 leaves the payload of its loads over the zero entry it stored first. -/
theorem out0_A_5_eq (c : Dev nD) (i : grid0.Coords) (arg1 : Memref sig .tc .vmem S128x8192 .f32) (harg1 : arg1.IsWhole) (arg2 : Memref sig .tc .vmem S128x32 .f32) (harg2 : arg2.IsWhole) (arg3 : Memref sig .tc .vmem S8192x32 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S1x1 .f32) (harg6 : arg6.IsWhole) (hc0 : cond0_0 i)
    (x0 : Vec F S128x8192 .f32) (x1 : Vec F S128x32 .f32) (x2 : Vec F S8192x32 .f32) (x3 : Vec F S128x1 .f32) (x4 : Vec F S1x8192 .f32) :
    out0_A_5 c i arg1 harg1 arg2 harg2 arg3 harg3 arg4 harg4 arg5 harg5 arg6 harg6 hc0 x0 x1 x2 x3 x4 = k0_pay2 x1 x2 x3 x4 x0 k0_pay1 := by
  unfold out0_A_5
  rw [View.read_writes_eq_canon _ _ _ (cover0_A_5 c i arg1 harg1 arg2 harg2 arg3 harg3 arg4 harg4 arg5 harg5 arg6 harg6 hc0 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread,
    View.ld_unit_zero (S := S128x8192) hz, View.ld_unit_zero (S := S128x32) hz, View.ld_unit_zero (S := S8192x32) hz,
    View.ld_unit_zero (S := S128x1) hz, View.ld_unit_zero (S := S1x8192) hz, View.ld_unit_zero (S := S1x1) hz]

end Cert.KernelIdeal.Hand

end
-- ==== Proof.KI.Blocks.lean ====
/-
  Each input window's block at a grid point, read off its array.

  The grid walks 64 tiles of 128 rows. At tile t the weight window holds rows 128 t .. 128 t + 127 of the weight matrix, the
  row window the same rows of the point matrix, the column-of-norms window the same rows of the column of squared norms; the
  two remaining input windows hold the whole point matrix and the whole row of squared norms at every tile. An element of a
  block sits in the array, on each axis, at the block index times the block's size plus its own coordinate; the block
  indices are decided once over the grid.
-/
import proofs.«149471_j5892695130791_1_alg».proof.Proof.KI.Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices over the grid -/

/-- The weight window's block index at tile t is (t, 0). -/
theorem idx0 : ∀ t : Fin cfg0.N, win0_0.index t (0 : Fin 2) = t.val ∧ win0_0.index t (1 : Fin 2) = 0 :=
  (by decide +kernel : ∀ t : Fin grid0.N, _)
/-- The row window's block index at tile t is (t, 0). -/
theorem idx1 : ∀ t : Fin cfg0.N, win0_1.index t (0 : Fin 2) = t.val ∧ win0_1.index t (1 : Fin 2) = 0 :=
  (by decide +kernel : ∀ t : Fin grid0.N, _)
/-- The whole point matrix is block (0, 0) at every tile. -/
theorem idx2 : ∀ t : Fin cfg0.N, win0_2.index t (0 : Fin 2) = 0 ∧ win0_2.index t (1 : Fin 2) = 0 :=
  (by decide +kernel : ∀ t : Fin grid0.N, _)
/-- The column-of-norms window's block index at tile t is (t, 0). -/
theorem idx3 : ∀ t : Fin cfg0.N, win0_3.index t (0 : Fin 2) = t.val ∧ win0_3.index t (1 : Fin 2) = 0 :=
  (by decide +kernel : ∀ t : Fin grid0.N, _)
/-- The whole row of norms is block (0, 0) at every tile. -/
theorem idx4 : ∀ t : Fin cfg0.N, win0_4.index t (0 : Fin 2) = 0 ∧ win0_4.index t (1 : Fin 2) = 0 :=
  (by decide +kernel : ∀ t : Fin grid0.N, _)

/-- Row r of tile t is a row of the matrices. -/
theorem row_lt (t : Fin cfg0.N) (r : Fin 128) : 128 * t.val + r.val < 8192 := by
  have := lt_of_lt_of_eq t.isLt (show cfg0.N = 64 from N_0); omega

/-! ## The blocks -/

/-- The weight block at tile t: entry (r, j) is the weight matrix at (128 t + r, j). -/
theorem iblk0_apply (c : Dev nD) (t : Fin cfg0.N) (r : Fin 128) (j : Fin 8192) :
    (iblk m c 0 t : S128x8192.Idx → Elt F .f32) (ix2 r j)
      = (V m c main_arg1 : S8192x8192.Idx → Elt F .f32) (ix2 (⟨128 * t.val + r.val, row_lt t r⟩ : Fin 8192) j) := by
  obtain ⟨e0, e1⟩ := idx0 t
  unfold iblk
  rw [View.read_apply]
  show (V m c main_arg1 : S8192x8192.Idx → Elt F .f32) _ = (V m c main_arg1 : S8192x8192.Idx → Elt F .f32) _
  refine congrArg (V m c main_arg1 : S8192x8192.Idx → Elt F .f32) (funext fun a => Fin.ext ?_)
  match a with
  | ⟨0, _⟩ => show win0_0.index t (0 : Fin 2) * 128 + 1 * r.val = 128 * t.val + r.val; rw [e0]; omega
  | ⟨1, _⟩ => show win0_0.index t (1 : Fin 2) * 8192 + 1 * j.val = j.val; rw [e1]; omega

/-- The row block at tile t: entry (r, k) is the point matrix at (128 t + r, k). -/
theorem iblk1_apply (c : Dev nD) (t : Fin cfg0.N) (r : Fin 128) (k : Fin 32) :
    (iblk m c 1 t : S128x32.Idx → Elt F .f32) (ix2 r k)
      = (V m c main_arg0 : S8192x32.Idx → Elt F .f32) (ix2 (⟨128 * t.val + r.val, row_lt t r⟩ : Fin 8192) k) := by
  obtain ⟨e0, e1⟩ := idx1 t
  unfold iblk
  rw [View.read_apply]
  show (V m c main_arg0 : S8192x32.Idx → Elt F .f32) _ = (V m c main_arg0 : S8192x32.Idx → Elt F .f32) _
  refine congrArg (V m c main_arg0 : S8192x32.Idx → Elt F .f32) (funext fun a => Fin.ext ?_)
  match a with
  | ⟨0, _⟩ => show win0_1.index t (0 : Fin 2) * 128 + 1 * r.val = 128 * t.val + r.val; rw [e0]; omega
  | ⟨1, _⟩ => show win0_1.index t (1 : Fin 2) * 32 + 1 * k.val = k.val; rw [e1]; omega

/-- The third window holds the whole point matrix at every tile. -/
theorem iblk2_eq (c : Dev nD) (t : Fin cfg0.N) :
    (iblk m c 2 t : S8192x32.Idx → Elt F .f32) = V m c main_arg0 := by
  obtain ⟨e0, e1⟩ := idx2 t
  funext y
  unfold iblk
  rw [View.read_apply]
  show (V m c main_arg0 : S8192x32.Idx → Elt F .f32) _ = (V m c main_arg0 : S8192x32.Idx → Elt F .f32) y
  refine congrArg (V m c main_arg0 : S8192x32.Idx → Elt F .f32) (funext fun a => Fin.ext ?_)
  match a with
  | ⟨0, _⟩ => show win0_2.index t (0 : Fin 2) * 8192 + 1 * (y 0).val = (y 0).val; rw [e0]; omega
  | ⟨1, _⟩ => show win0_2.index t (1 : Fin 2) * 32 + 1 * (y 1).val = (y 1).val; rw [e1]; omega

/-- The block of the column of squared norms at tile t: entry (r, 0) is the column at (128 t + r, 0). -/
theorem iblk3_apply (c : Dev nD) (t : Fin cfg0.N) (r : Fin 128) :
    (iblk m c 3 t : S128x1.Idx → Elt F .f32) (ix2 r (0 : Fin 1))
      = (V m c main_v2 : S8192x1.Idx → Elt F .f32) (ix2 (⟨128 * t.val + r.val, row_lt t r⟩ : Fin 8192) (0 : Fin 1)) := by
  obtain ⟨e0, e1⟩ := idx3 t
  unfold iblk
  rw [View.read_apply]
  show (V m c main_v2 : S8192x1.Idx → Elt F .f32) _ = (V m c main_v2 : S8192x1.Idx → Elt F .f32) _
  refine congrArg (V m c main_v2 : S8192x1.Idx → Elt F .f32) (funext fun a => Fin.ext ?_)
  match a with
  | ⟨0, _⟩ => show win0_3.index t (0 : Fin 2) * 128 + 1 * r.val = 128 * t.val + r.val; rw [e0]; omega
  | ⟨1, _⟩ => show win0_3.index t (1 : Fin 2) * 1 + 1 * 0 = 0; rw [e1]

/-- The fifth window holds the whole row of squared norms at every tile. -/
theorem iblk4_eq (c : Dev nD) (t : Fin cfg0.N) :
    (iblk m c 4 t : S1x8192.Idx → Elt F .f32) = V m c main_v3 := by
  obtain ⟨e0, e1⟩ := idx4 t
  funext y
  unfold iblk
  rw [View.read_apply]
  show (V m c main_v3 : S1x8192.Idx → Elt F .f32) _ = (V m c main_v3 : S1x8192.Idx → Elt F .f32) y
  refine congrArg (V m c main_v3 : S1x8192.Idx → Elt F .f32) (funext fun a => Fin.ext ?_)
  match a with
  | ⟨0, _⟩ => show win0_4.index t (0 : Fin 2) * 1 + 1 * (y 0).val = (y 0).val; rw [e0]; omega
  | ⟨1, _⟩ => show win0_4.index t (1 : Fin 2) * 8192 + 1 * (y 1).val = (y 1).val; rw [e1]; omega

end Cert.KernelIdeal.Hand

end
-- ==== Proof.Spec.lean ====
/-
  The quantity both programs compute, stated once over the argument arrays.

  For a point matrix Y (8192 rows in 32 coordinates) and a weight matrix W (8192 by 8192):
  the squared norm of row i, the inner product of rows i and j, the clamped squared distance
  max(|y_i|^2 + |y_j|^2 - 2 <y_i, y_j>, 0), its product with the weight W i j, and the sum of those
  products over all pairs, divided by the number of rows.  The same sum is also written tile by tile:
  64 tiles of 128 consecutive rows, each tile's partial sum added to a running total.  Everything is
  over the extended reals; the words for 2.0 and 8192.0 are kept as words (the same word stands on
  both sides and is never evaluated).
-/
import Idealize.ShloMosaic.Lib.ValueIdx
import Idealize.ShloMosaic.PureOps.Ideal.Laws

noncomputable section

open scoped BigOperators

namespace Cert.PairDist

open Idealize.ShloMosaic Idealize.ShloMosaic.ValueIdx

/-- The word of 2.0 and the word of 8192.0, as extended reals. -/
def twoLit : EReal := Ideal.ofBits .f32 0x40000000#32
def nLit : EReal := Ideal.ofBits .f32 0x46000000#32

/-- Squared norm of row `i`. -/
def sqn (Y : (⟨2, ![8192, 32]⟩ : Shape).Idx → EReal) (i : Fin 8192) : EReal :=
  ∑ k : Fin 32, Y (ix2 i k) * Y (ix2 i k)

/-- Inner product of rows `i` and `j`. -/
def gram (Y : (⟨2, ![8192, 32]⟩ : Shape).Idx → EReal) (i j : Fin 8192) : EReal :=
  ∑ k : Fin 32, Y (ix2 i k) * Y (ix2 j k)

/-- Clamped squared distance of rows `i` and `j`. -/
def dist (Y : (⟨2, ![8192, 32]⟩ : Shape).Idx → EReal) (i j : Fin 8192) : EReal :=
  max ((sqn Y i + sqn Y j) - twoLit * gram Y i j) 0

/-- The weighted distance of the pair `(i, j)`. -/
def term (Y : (⟨2, ![8192, 32]⟩ : Shape).Idx → EReal) (W : (⟨2, ![8192, 8192]⟩ : Shape).Idx → EReal) (i j : Fin 8192) : EReal :=
  W (ix2 i j) * dist Y i j

/-- The sum over all pairs. -/
def total (Y : (⟨2, ![8192, 32]⟩ : Shape).Idx → EReal) (W : (⟨2, ![8192, 8192]⟩ : Shape).Idx → EReal) : EReal :=
  ∑ i : Fin 8192, ∑ j : Fin 8192, term Y W i j

/-- The result: the sum over all pairs divided by the number of rows. -/
def G (Y : (⟨2, ![8192, 32]⟩ : Shape).Idx → EReal) (W : (⟨2, ![8192, 8192]⟩ : Shape).Idx → EReal) : (⟨0, ![]⟩ : Shape).Idx → EReal :=
  fun _ => Ideal.div (total Y W) nLit

/-! ## Tile by tile -/

/-- Row `r` of tile `t`: row `128 t + r` of the matrices. -/
def rowOf (t : Fin 64) (r : Fin 128) : Fin 8192 := ⟨128 * t.val + r.val, by omega⟩

/-- What one tile of 128 rows contributes, from the tile's own blocks: the weights `w` of its rows, the
    rows `yi` themselves, all rows `yf`, the squared norms `sr` of its rows (a column) and `sc` of all rows (a row). -/
def blockPartial (w : (⟨2, ![128, 8192]⟩ : Shape).Idx → EReal) (yi : (⟨2, ![128, 32]⟩ : Shape).Idx → EReal)
    (yf : (⟨2, ![8192, 32]⟩ : Shape).Idx → EReal) (sr : (⟨2, ![128, 1]⟩ : Shape).Idx → EReal)
    (sc : (⟨2, ![1, 8192]⟩ : Shape).Idx → EReal) : EReal :=
  ∑ r : Fin 128, ∑ j : Fin 8192,
    w (ix2 r j) * max ((sr (ix2 r (0 : Fin 1)) + sc (ix2 (0 : Fin 1) j)) - twoLit * ∑ k : Fin 32, yi (ix2 r k) * yf (ix2 j k)) 0

/-- What tile `t` contributes, from the whole matrices. -/
def tilePartial (Y : (⟨2, ![8192, 32]⟩ : Shape).Idx → EReal) (W : (⟨2, ![8192, 8192]⟩ : Shape).Idx → EReal) (t : Fin 64) : EReal :=
  ∑ r : Fin 128, ∑ j : Fin 8192, term Y W (rowOf t r) j

/-- The running total after tile `n`. -/
def acc (Y : (⟨2, ![8192, 32]⟩ : Shape).Idx → EReal) (W : (⟨2, ![8192, 8192]⟩ : Shape).Idx → EReal) : (n : ℕ) → n < 64 → EReal
  | 0, h => tilePartial Y W ⟨0, h⟩
  | n + 1, h => acc Y W n (Nat.lt_of_succ_lt h) + tilePartial Y W ⟨n + 1, h⟩

end Cert.PairDist

end
-- ==== Proof.KIEntry.lean ====
/-
  What the two squared-norm windows' arrays hold when the kernel region is entered.

  Before the region the program squares the point matrix entrywise, sums each row from the word of zero, and
  lays the 8192 row sums out once as a column (8192 by 1) and once as a row (1 by 8192).  A reshape keeps the
  row-major position, so the column at (i, 0) and the row at (0, j) are the row sums at i and at j; the row sum
  of the squared entries from zero is the squared norm of the row of the argument matrix.
-/
import proofs.«149471_j5892695130791_1_alg».proof.Proof.KI.Base
import proofs.«149471_j5892695130791_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Entry

open Cert.KernelIdeal Cert.KernelIdeal.Gen Cert.KernelIdeal.Hand Cert.PairDist
open Idealize.ShloMosaic Idealize.ShloMosaic.ValueIdx Idealize.ShloMosaic.TcCoe Idealize.ShloMosaic.StableHlo

/-- The row sums of the squared entries of a matrix `x`, from the word of zero. -/
abbrev rowSums (x : (⟨S8192x32, .f32⟩ : BufTy).Contents (Elt Ideal)) : (⟨S8192, .f32⟩ : BufTy).Contents (Elt Ideal) :=
  Host.reduceAdd (F := Ideal) (mulf (F := Ideal) (s := S8192x32) (φ := .f32) x x) (constant (F := Ideal) S_ .f32 0x00000000#32) reducesTo_S8192x32_S8192_d1 h_S_

/-- The row sum at `i` is the squared norm of row `i`. -/
theorem rowSums_apply (x : (⟨S8192x32, .f32⟩ : BufTy).Contents (Elt Ideal)) (i : Fin 8192) :
    (rowSums x : S8192.Idx → EReal) (ix1 i) = sqn x i := by
  unfold rowSums
  generalize hy : mulf (F := Ideal) (s := S8192x32) (φ := .f32) x x = y0
  simp only [Host.reduceAdd, Ideal.hostReduceAdd_def]
  rw [Ideal.hostReduceAdd_single reducesTo_S8192x32_S8192_d1 (by decide)]
  show Ideal.ofBits .f32 0x00000000#32 + _ = _
  rw [Ideal.ofBits_zero_f32, zero_add]
  subst hy
  unfold sqn
  refine Finset.sum_congr rfl fun k _ => ?_
  exact (congrArg (mulf (F := Ideal) (s := S8192x32) (φ := .f32) x x)
    (show _ = ix2 i k from funext fun a => Fin.ext (by match a with | ⟨0, _⟩ => rfl | ⟨1, _⟩ => rfl))).trans rfl

variable (m : (ℓ : Loc nD τ sig) → Buf (Elt Ideal) ℓ) (c : Dev nD)

/-- The column window's array at entry: the row sums of the argument matrix laid out as a column. -/
theorem V_v2_eq : (V (F := Ideal) m c main_v2 : S8192x1.Idx → EReal)
    = shapeCast S8192x1 (rowSums (m ((c : Thread nD τ).loc main_arg0))) shapeCasts_S8192_S8192x1 := by
  dsimp only [V, V0]; simp only [hostOps0, List.flatten_cons, List.flatten_nil, List.append_nil]; after_results; rfl

/-- The row window's array at entry: the row sums of the argument matrix laid out as a row. -/
theorem V_v3_eq : (V (F := Ideal) m c main_v3 : S1x8192.Idx → EReal)
    = shapeCast S1x8192 (rowSums (m ((c : Thread nD τ).loc main_arg0))) shapeCasts_S8192_S1x8192 := by
  dsimp only [V, V0]; simp only [hostOps0, List.flatten_cons, List.flatten_nil, List.append_nil]; after_results; rfl

/-- The column at `(i, 0)` is the squared norm of row `i` of the argument matrix. -/
theorem V_v2_apply (i : Fin 8192) :
    (V (F := Ideal) m c main_v2 : S8192x1.Idx → EReal) (ix2 i (0 : Fin 1)) = sqn (m ((c : Thread nD τ).loc main_arg0)) i := by
  rw [V_v2_eq, shapeCast_apply _ shapeCasts_S8192_S8192x1 (ix2 i (0 : Fin 1)) (ix1 i) (by
    rw [Shape.rowMajor_val_two, Shape.rowMajor_val_one]
    show i.val = i.val * 1 + 0
    omega)]
  exact rowSums_apply _ i

/-- The row at `(0, j)` is the squared norm of row `j` of the argument matrix. -/
theorem V_v3_apply (j : Fin 8192) :
    (V (F := Ideal) m c main_v3 : S1x8192.Idx → EReal) (ix2 (0 : Fin 1) j) = sqn (m ((c : Thread nD τ).loc main_arg0)) j := by
  rw [V_v3_eq, shapeCast_apply _ shapeCasts_S8192_S1x8192 (ix2 (0 : Fin 1) j) (ix1 j) (by
    rw [Shape.rowMajor_val_two, Shape.rowMajor_val_one]
    show j.val = 0 * 8192 + j.val
    omega)]
  exact rowSums_apply _ j

end Cert.KernelIdeal.Entry

end
-- ==== Proof.Payload.lean ====
/-
  The two values the kernel body stores, read at their one index.

  The body keeps a 1 by 1 accumulator. On the first visit it stores the zero word; on every visit it stores the old entry plus
  the tile's contribution: for row r of the tile and column j, the weight w(r, j) times
  max((sr(r) + sc(j)) - 2 * sum_k yi(r, k) * yf(j, k), 0), summed over the 8192 columns and then over the 128 rows.
  Over the extended reals the change to the narrower format is the identity, the product into the zero block is the plain sum
  over k, and each of the two sums starts from the zero word, which is 0.
-/
import proofs.«149471_j5892695130791_1_alg».proof.Proof.Spec
import proofs.«149471_j5892695130791_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

variable [Cert.KernelIdeal.Facts]

/-- The first visit stores the zero word: the accumulator starts at 0. -/
theorem pay1_eq : (k0_pay1 (F := Ideal) : FVec Ideal S1x1 .f32) = fun _ => (0 : EReal) := by
  funext i
  exact Ideal.ofBits_zero_f32

/-! ## The contraction's operand indices

The product contracts the second axis of both operands: at output index (r, j) and contraction position k the left operand is
read at (r, k) and the right one at (j, k). One statement per operand axis. -/

/-- Left operand, axis 0: the output's row. -/
theorem lhs_ax0 (i : S128x8192.Idx) (q : dot_S128x32_S8192x32_S128x8192_1_1_0_0_n_n.contr.Idx) :
    (dot_S128x32_S8192x32_S128x8192_1_1_0_0_n_n.lhsIdx i q 0).val = (i 0).val := by
  unfold DotDims.lhsIdx
  rw [dif_neg (show ¬(0 : Fin S128x32.rank) ∈ dot_S128x32_S8192x32_S128x8192_1_1_0_0_n_n.lhsBatch by decide), dif_pos (show (0 : Fin S128x32.rank) ∈ dot_S128x32_S8192x32_S128x8192_1_1_0_0_n_n.lhsNonContracting by decide)]
  rfl
/-- Left operand, axis 1: the contraction position. -/
theorem lhs_ax1 (i : S128x8192.Idx) (q : dot_S128x32_S8192x32_S128x8192_1_1_0_0_n_n.contr.Idx) :
    (dot_S128x32_S8192x32_S128x8192_1_1_0_0_n_n.lhsIdx i q 1).val = (q ⟨0, by decide⟩).val :=
  dot_S128x32_S8192x32_S128x8192_1_1_0_0_n_n.lhsIdx_val_of_single rfl i q
/-- Right operand, axis 0: the output's column. -/
theorem rhs_ax0 (i : S128x8192.Idx) (q : dot_S128x32_S8192x32_S128x8192_1_1_0_0_n_n.contr.Idx) :
    (dot_S128x32_S8192x32_S128x8192_1_1_0_0_n_n.rhsIdx i q 0).val = (i 1).val := by
  unfold DotDims.rhsIdx
  rw [dif_neg (show ¬(0 : Fin S8192x32.rank) ∈ dot_S128x32_S8192x32_S128x8192_1_1_0_0_n_n.rhsBatch by decide), dif_pos (show (0 : Fin S8192x32.rank) ∈ dot_S128x32_S8192x32_S128x8192_1_1_0_0_n_n.rhsNonContracting by decide)]
  rfl
/-- Right operand, axis 1: the contraction position. -/
theorem rhs_ax1 (i : S128x8192.Idx) (q : dot_S128x32_S8192x32_S128x8192_1_1_0_0_n_n.contr.Idx) :
    (dot_S128x32_S8192x32_S128x8192_1_1_0_0_n_n.rhsIdx i q 1).val = (q ⟨0, by decide⟩).val :=
  dot_S128x32_S8192x32_S128x8192_1_1_0_0_n_n.rhsIdx_val_of_single rfl i q

/-- The contraction of the two row blocks: entry (r, j) of the product into the zero block is the inner product of row r of the
    left operand and row j of the right one. -/
theorem mm_apply (a : FVec Ideal S128x32 .bf16) (b : FVec Ideal S8192x32 .bf16) (r : Fin 128) (j : Fin 8192) :
    matmul dot_S128x32_S8192x32_S128x8192_1_1_0_0_n_n none a b (constant (F := Ideal) S128x8192 .f32 0x00000000#32) (ix2 r j)
      = ∑ k : Fin 32, a (ix2 r k) * b (ix2 j k) := by
  simp only [matmul]
  rw [Ideal.matmul_constant_zero_apply, ← Equiv.sum_comp (ValueIdx.contrEquiv1 dot_S128x32_S8192x32_S128x8192_1_1_0_0_n_n 32 rfl rfl).symm]
  refine Finset.sum_congr rfl fun k _ => ?_
  have hk := ValueIdx.contrEquiv1_symm_val dot_S128x32_S8192x32_S128x8192_1_1_0_0_n_n 32 rfl rfl k
  have el : dot_S128x32_S8192x32_S128x8192_1_1_0_0_n_n.lhsIdx (ix2 r j) ((ValueIdx.contrEquiv1 dot_S128x32_S8192x32_S128x8192_1_1_0_0_n_n 32 rfl rfl).symm k) = ix2 r k := funext fun c => Fin.ext (by
    match c with
    | ⟨0, _⟩ => exact lhs_ax0 _ _
    | ⟨1, _⟩ => exact (lhs_ax1 _ _).trans hk)
  have er : dot_S128x32_S8192x32_S128x8192_1_1_0_0_n_n.rhsIdx (ix2 r j) ((ValueIdx.contrEquiv1 dot_S128x32_S8192x32_S128x8192_1_1_0_0_n_n 32 rfl rfl).symm k) = ix2 j k := funext fun c => Fin.ext (by
    match c with
    | ⟨0, _⟩ => exact rhs_ax0 _ _
    | ⟨1, _⟩ => exact (rhs_ax1 _ _).trans hk)
  rw [el, er]

/-! ## The two sums -/

/-- The sum along the lanes: entry r of the row sums is the sum over the 8192 columns of row r. -/
theorem laneSum_apply (v : FVec Ideal S128x8192 .f32) (r : Fin 128) :
    multiReduction (F := Ideal) .add [1] S128 v 0x00000000#32 reduces_S128x8192_S128 (.inl rfl) rfl (ix1 r)
      = ∑ j : Fin 8192, v (ix2 r j) := by
  refine (Ideal.multiReduction_add_single v 0x00000000#32 reduces_S128x8192_S128 (.inl rfl) rfl (ix1 r)).trans ?_
  refine Finset.sum_congr rfl fun j _ => ?_
  exact congrArg v (funext fun c => Fin.ext (by match c with | ⟨0, _⟩ => rfl | ⟨1, _⟩ => rfl))

/-- The sum down the one column: its single entry is the sum over the 128 rows. -/
theorem colSum_apply (v : FVec Ideal S128x1 .f32) :
    multiReduction (F := Ideal) .add [0] S1 v 0x00000000#32 reduces_S128x1_S1 (.inl rfl) rfl (ix1 (0 : Fin 1))
      = ∑ r : Fin 128, v (ix2 r (0 : Fin 1)) := by
  refine (Ideal.multiReduction_add_single v 0x00000000#32 reduces_S128x1_S1 (.inl rfl) rfl (ix1 (0 : Fin 1))).trans ?_
  refine Finset.sum_congr rfl fun r _ => ?_
  exact congrArg v (funext fun c => Fin.ext (by match c with | ⟨0, _⟩ => rfl | ⟨1, _⟩ => rfl))

/-! ## Changes of shape read at an index -/

/-- A vector of length 128 viewed as a column [128, 1] reads, at (r, 0), the vector at r: both have row-major position r. -/
theorem cast_col_apply {α : Type} (x : S128.Idx → α) (r : Fin 128) (u : Fin 1) :
    shapeCast S128x1 x shapeCasts_S128_S128x1 (ix2 r u) = x (ix1 r) :=
  shapeCast_apply x shapeCasts_S128_S128x1 _ _ (by
    have hu : u.val = 0 := by omega
    rw [Shape.rowMajor_val_two, Shape.rowMajor_val_one]
    show r.val = r.val * 1 + u.val
    rw [hu, Nat.mul_one, Nat.add_zero])

/-- The one-entry vector viewed as a 1 by 1 matrix. -/
theorem cast_one_apply {α : Type} (x : S1.Idx → α) (u w : Fin 1) :
    shapeCast S1x1 x shapeCasts_S1_S1x1 (ix2 u w) = x (ix1 w) :=
  shapeCast_a_1a_apply x shapeCasts_S1_S1x1 u w

/-- A column [128, 1] spread over 8192 columns reads, at (r, j), the column at r. -/
theorem bcast_col_apply {α : Type} (x : S128x1.Idx → α) (r : Fin 128) (j : Fin 8192) :
    broadcastTo S128x8192 x broadcasts_S128x1_S128x8192 (ix2 r j) = x (ix2 r (0 : Fin 1)) := by
  refine broadcastTo_apply x broadcasts_S128x1_S128x8192 (ix2 r j) (ix2 r (0 : Fin 1)) fun ax => ?_
  match ax with
  | ⟨0, _⟩ =>
    show r.val = if (128 : Nat) = 1 then 0 else r.val
    rw [if_neg (by decide)]
  | ⟨1, _⟩ =>
    show 0 = if (1 : Nat) = 1 then 0 else j.val
    rw [if_pos rfl]

/-- A row [1, 8192] spread over 128 rows reads, at (r, j), the row at j. -/
theorem bcast_row_apply {α : Type} (x : S1x8192.Idx → α) (r : Fin 128) (j : Fin 8192) :
    broadcastTo S128x8192 x broadcasts_S1x8192_S128x8192 (ix2 r j) = x (ix2 (0 : Fin 1) j) :=
  broadcastTo_1b_ab_apply x broadcasts_S1x8192_S128x8192 r j

/-! ## The stored value -/

/-- What a visit stores: the old accumulator entry plus the tile's contribution, the weighted clamped squared distances of the
    tile's 128 rows against all 8192 rows, summed along the lanes and then down the rows. -/
theorem pay2_eq (v3 : Vec Ideal S128x32 .f32) (v5 : Vec Ideal S8192x32 .f32) (v8 : Vec Ideal S128x1 .f32)
    (v10 : Vec Ideal S1x8192 .f32) (v20 : Vec Ideal S128x8192 .f32) (v26 : Vec Ideal S1x1 .f32) :
    k0_pay2 (F := Ideal) v3 v5 v8 v10 v20 v26
      = fun _ => v26 (ValueIdx.ix2 (0 : Fin 1) (0 : Fin 1)) + Cert.PairDist.blockPartial v20 v3 v5 v8 v10 := by
  funext i
  -- the 1 by 1 shape has the one index (0, 0)
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  dsimp only [k0_pay2]
  -- old entry + (sum over rows of the column of row sums)
  rw [addf_apply, shapeCast_self, cast_one_apply, colSum_apply]
  unfold Cert.PairDist.blockPartial
  refine congrArg (v26 (ix2 (0 : Fin 1) (0 : Fin 1)) + ·) (Finset.sum_congr rfl fun r _ => ?_)
  -- row r: the sum over the columns
  rw [cast_col_apply, laneSum_apply]
  refine Finset.sum_congr rfl fun j _ => ?_
  -- the term at (r, j)
  rw [mulf_apply, maximumf_apply, subf_apply, addf_apply, mulf_apply, broadcast_apply, broadcast_apply,
    bcast_col_apply, bcast_row_apply, shapeCast_self, shapeCast_self, mm_apply]
  simp only [truncf_apply]
  show _ * max (_ - Ideal.ofBits .f32 0x40000000#32 * _) (Ideal.ofBits .f32 0x00000000#32) = _
  rw [Ideal.ofBits_zero_f32]
  rfl

end Cert.KernelIdeal.Payload

end
-- ==== Proof.Algebra.lean ====
/-
  The running total after the last tile is the sum over all rows.

  Adding the 64 tile contributions one after the other is the sum over the tiles; a row index below 8192
  is uniquely 128 t + r with t below 64 and r below 128, so the sum over tiles of the sum over the rows of a
  tile is the sum over all rows.  Only commutativity and associativity of the addition are used.
-/
import proofs.«149471_j5892695130791_1_alg».proof.Proof.Spec
import Mathlib.Algebra.BigOperators.Fin
import Mathlib.Algebra.BigOperators.Group.Finset.Basic

noncomputable section

open scoped BigOperators

namespace Cert.PairDist

open Idealize.ShloMosaic Idealize.ShloMosaic.ValueIdx

/-- A pair (tile, row in the tile) is a row: the map (t, r) to 128 t + r is a bijection onto the rows. -/
def tileRowEquiv : Fin 64 × Fin 128 ≃ Fin 8192 where
  toFun p := rowOf p.1 p.2
  invFun i := (⟨i.val / 128, by omega⟩, ⟨i.val % 128, by omega⟩)
  left_inv p := by
    obtain ⟨⟨t, ht⟩, ⟨r, hr⟩⟩ := p
    simp only [rowOf]
    refine Prod.ext (Fin.ext ?_) (Fin.ext ?_)
    · show (128 * t + r) / 128 = t
      omega
    · show (128 * t + r) % 128 = r
      omega
  right_inv i := by
    obtain ⟨i, hi⟩ := i
    refine Fin.ext ?_
    show 128 * (i / 128) + i % 128 = i
    omega

/-- In a commutative monoid, the sum over the tiles of the sum over the rows of each tile is the sum over all rows. -/
theorem sum_tiles_rows {M : Type*} [AddCommMonoid M] (f : Fin 8192 → M) :
    ∑ t : Fin 64, ∑ r : Fin 128, f (rowOf t r) = ∑ i : Fin 8192, f i := by
  rw [← Equiv.sum_comp tileRowEquiv f, Fintype.sum_prod_type]
  rfl

/-- In a commutative monoid, a running total that starts at the first summand and adds the next one at each
    step is the sum of the summands met so far. -/
theorem running_total {M : Type*} [AddCommMonoid M] (g : Fin 64 → M) (a : (n : ℕ) → n < 64 → M)
    (h0 : ∀ h, a 0 h = g ⟨0, h⟩)
    (hs : ∀ n h, a (n + 1) h = a n (Nat.lt_of_succ_lt h) + g ⟨n + 1, h⟩) :
    ∀ (n : ℕ) (h : n < 64), a n h = ∑ t ∈ Finset.range (n + 1), (if ht : t < 64 then g ⟨t, ht⟩ else 0)
  | 0, h => by
    rw [h0, Finset.sum_range_one, dif_pos h]
  | n + 1, h => by
    rw [hs, running_total g a h0 hs n (Nat.lt_of_succ_lt h), Finset.sum_range_succ _ (n + 1), dif_pos h]

/-- The running total after tile `n` is the sum of the contributions of the tiles up to `n`. -/
theorem acc_eq_sum_range (Y : (⟨2, ![8192, 32]⟩ : Shape).Idx → EReal) (W : (⟨2, ![8192, 8192]⟩ : Shape).Idx → EReal)
    (n : ℕ) (h : n < 64) :
    acc Y W n h = ∑ t ∈ Finset.range (n + 1), (if ht : t < 64 then tilePartial Y W ⟨t, ht⟩ else 0) :=
  running_total (tilePartial Y W) (acc Y W) (fun _ => rfl) (fun _ _ => rfl) n h

/-- The running total after the last tile is the sum over all pairs. -/
theorem acc_last (Y : (⟨2, ![8192, 32]⟩ : Shape).Idx → EReal) (W : (⟨2, ![8192, 8192]⟩ : Shape).Idx → EReal) :
    acc Y W 63 (by decide) = total Y W := by
  rw [acc_eq_sum_range, ← Fin.sum_univ_eq_sum_range (fun t => if ht : t < 64 then tilePartial Y W ⟨t, ht⟩ else 0) (63 + 1)]
  have hg : ∀ t : Fin 64, (if ht : t.val < 64 then tilePartial Y W ⟨t.val, ht⟩ else 0) = tilePartial Y W t :=
    fun t => dif_pos t.isLt
  rw [Finset.sum_congr rfl fun t _ => hg t]
  exact sum_tiles_rows fun i => ∑ j : Fin 8192, term Y W i j

end Cert.PairDist

end
-- ==== Proof.KIValue.lean ====
/-
  The idealized kernel's result, as the quantity of the specification.

  Tile t's five blocks are rows 128 t … 128 t + 127 of the weight matrix and of the point matrix, the whole point
  matrix, and the squared norms of those rows and of all rows (computed by the host lines before the region), so the
  body's sum over the tile is the tile's share of the sum over all pairs.  By induction on the point, the result buffer
  holds the running total of the tiles so far; it is written back once, after the last tile, so the result array
  ends at the sum over all pairs, which the host lines after the region divide by 8192.
-/
import proofs.«149471_j5892695130791_1_alg».proof.Proof.KI.Around
import proofs.«149471_j5892695130791_1_alg».proof.Proof.KI.Pieces
import proofs.«149471_j5892695130791_1_alg».proof.Proof.KI.Blocks
import proofs.«149471_j5892695130791_1_alg».proof.Proof.KIEntry
import proofs.«149471_j5892695130791_1_alg».proof.Proof.Payload
import proofs.«149471_j5892695130791_1_alg».proof.Proof.Algebra

set_option maxRecDepth 16384

noncomputable section

namespace Cert.KernelIdeal.KValue

open Cert.KernelIdeal Cert.KernelIdeal.Gen Cert.KernelIdeal.Hand Cert.PairDist
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-- The point matrix and the weight matrix at launch. -/
abbrev Yof : S8192x32.Idx → EReal := m ((c : Thread nD τ).loc main_arg0)
abbrev Wof : S8192x8192.Idx → EReal := m ((c : Thread nD τ).loc main_arg1)

theorem N64 : cfg0.N = 64 := N_0

/-- The running total does not depend on how its index is written. -/
theorem acc_congr (Y : S8192x32.Idx → EReal) (W : S8192x8192.Idx → EReal) {n n' : ℕ} (h : n = n') (hn : n < 64) (hn' : n' < 64) :
    acc Y W n hn = acc Y W n' hn' := by subst h; rfl

/-- Tile `t`'s blocks give tile `t`'s share of the sum. -/
theorem blocks_partial (t : Fin cfg0.N) :
    blockPartial (iblk m c 0 t : S128x8192.Idx → EReal) (iblk m c 1 t : S128x32.Idx → EReal) (iblk m c 2 t : S8192x32.Idx → EReal)
        (iblk m c 3 t : S128x1.Idx → EReal) (iblk m c 4 t : S1x8192.Idx → EReal)
      = tilePartial (Yof m c) (Wof m c) ⟨t.val, lt_of_lt_of_eq t.isLt N64⟩ := by
  unfold blockPartial tilePartial
  refine Finset.sum_congr rfl fun r _ => Finset.sum_congr rfl fun j _ => ?_
  unfold term PairDist.dist gram
  rw [iblk0_apply m c t r j, iblk3_apply m c t r, iblk4_eq m c t, iblk2_eq m c t, V_main_arg1, Entry.V_v2_apply m c, Entry.V_v3_apply m c]
  simp only [iblk1_apply m c t r, V_main_arg0]
  rfl

/-- After point `n` the result buffer holds the running total of the tiles up to `n`. -/
theorem outsAt0_eq : ∀ (n : ℕ) (hn : n < cfg0.N),
    outsAt0 m c n hn = fun _ => acc (Yof m c) (Wof m c) n (lt_of_lt_of_eq hn N64)
  | 0, hn => by
    rw [outsAt0, out0_A_5_eq, Payload.pay2_eq, Payload.pay1_eq, blocks_partial m c ⟨0, hn⟩]
    funext _
    show (0 : EReal) + tilePartial (Yof m c) (Wof m c) ⟨0, _⟩ = tilePartial (Yof m c) (Wof m c) ⟨0, _⟩
    exact zero_add _
  | n + 1, hn => by
    rw [outsAt0, out0_B_5_eq, Payload.pay2_eq, blocks_partial m c ⟨n + 1, hn⟩, outsAt0_eq n (Nat.lt_of_succ_lt hn)]
    rfl

/-! ## The result array after the run -/

/-- The result window's block index is the origin at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The one write-back, after the last tile, writes the sum of all tiles. -/
theorem flushed5_eq (t : Fin cfg0.N) (hf : (cfg0.win 5).flush t = true) :
    (dats m 0 c).flushed 5 t
      = ((cfg0.win 5).blk t).view.read (Elt Ideal) (fun _ => acc (Yof m c) (Wof m c) 63 (by decide)) := by
  have hN : t.val < 64 := lt_of_lt_of_eq t.isLt N64
  have h63 : t.val = 63 := by have := (flush0_5 t).mp hf; omega
  show (cfg0.win 5).cut (grid0.coords t) ((dats m 0 c).after 5 t) = _
  rw [after0_5, outsAt0_eq]
  funext y
  rw [View.read_apply]
  exact acc_congr _ _ h63 _ _

/-- The last point of the grid. -/
abbrev tLast : Fin cfg0.N := ⟨63, by rw [N64]; decide⟩

/-- The one entry of the result array is in the last point's block. -/
theorem cover5 (i : S1x1.Idx) :
    ∃ t : Fin cfg0.N, (cfg0.win 5).flush t = true ∧ i ∈ ((cfg0.win 5).blk t).view.set := by
  refine ⟨tLast, (flush0_5 tLast).mpr rfl, ?_⟩
  show i ∈ ((View.whole main_v4).slice (win0_5.rect tLast)).set
  rw [View.set_slice_whole, Rect.mem_set_unit]
  obtain ⟨e0, e1⟩ := idx5 tLast
  intro a
  match a with
  | ⟨0, _⟩ => show win0_5.index tLast (0 : Fin 2) * 1 ≤ (i 0).val ∧ (i 0).val < win0_5.index tLast (0 : Fin 2) * 1 + 1; have hi : (i 0).val < 1 := (i 0).isLt; omega
  | ⟨1, _⟩ => show win0_5.index tLast (1 : Fin 2) * 1 ≤ (i 1).val ∧ (i 1).val < win0_5.index tLast (1 : Fin 2) * 1 + 1; have hi : (i 1).val < 1 := (i 1).isLt; omega

/-- The result array ends at the sum over all pairs. -/
theorem arrAt_last : (dats m 0 c).arrAt 5 cfg0.N = fun _ => total (Yof m c) (Wof m c) := by
  rw [(dats m 0 c).arrAt_eq_of_cover 5 (fun _ => acc (Yof m c) (Wof m c) 63 (by decide)) (fun t hf => flushed5_eq m c t hf) cover5,
    acc_last]

/-! ## The program's result -/

/-- The program's result buffer after the three host lines: the reshaped result array over the word of 8192.0. -/
theorem Vfin_v6 : Vfin m c main_v6
    = Host.divf (F := Ideal) (shapeCast S_ (Wexit m c (Proc.devRef .tc main_v4)) shapeCasts_S1x1_S_) (constant (F := Ideal) S_ .f32 0x46000000#32) := by
  dsimp only [Vfin, Wfin]
  simp only [hostOps1, List.flatten_cons, List.flatten_nil, List.append_nil]
  after_results
  rfl

/-- The program's result is the specification's. -/
theorem result_eq : Vfin m c main_v6 = G (Yof m c) (Wof m c) := by
  funext i
  rw [Vfin_v6]
  show Ideal.div (shapeCast S_ (Wexit m c (Proc.devRef .tc main_v4)) shapeCasts_S1x1_S_ i) (Ideal.ofBits .f32 0x46000000#32) = Ideal.div (total (Yof m c) (Wof m c)) nLit
  rw [shapeCast_apply _ shapeCasts_S1x1_S_ i (ix2 (0 : Fin 1) (0 : Fin 1)) (by
      have h1 := (S1x1.rowMajor (ix2 (0 : Fin 1) (0 : Fin 1))).isLt
      have h2 := (S_.rowMajor i).isLt
      have e1 : S1x1.numel = 1 := by decide
      have e2 : S_.numel = 1 := by decide
      omega),
    Wexit_v4, arrAt_last]
  rfl

/-- THE VALUE: from any memory with zero counters every weakly fair execution of the idealized program terminates
    without a fault, its result the specification's quantity of the two argument arrays, which are unchanged. -/
theorem run : θ_run defs (onTc (τ := τ) (main (F := Ideal))) ⟨m, fun _ => 0, ρ⟩ (fun r => ∀ c : Dev nD,
      r.2.mem ((c.tc : Thread nD τ).loc main_v6) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v6 (by decide)).trans (result_eq m c),
       ((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c)))⟩)
    (run_main m ρ)

end Cert.KernelIdeal.KValue

end
-- ==== Proof.RefValue.lean ====
/-
  The reference program's result is the quantity G of the specification.

  Read one operation at a time at an index: the row reduction of the squared entries is the squared norm of a
  row (the initial value is the word of zero); the contraction against the transposed matrix is the inner product of
  two rows; the two broadcasts of the squared norms read row i and row j; the broadcast constants are the words
  of 2.0 and 0.0; so the entry (i, j) of the product with the weights is the weighted clamped squared distance of the
  pair.  The reduction over both axes is the double sum over the pairs, and the last operation divides by the word of
  8192.0.
-/
import proofs.«149471_j5892695130791_1_alg».proof.Proof.Spec
import proofs.«149471_j5892695130791_1_alg».proof.Proof.Gen.ReferenceIdeal.Read

noncomputable section

open scoped BigOperators

namespace Cert.ReferenceIdeal.RefValue

open Cert.ReferenceIdeal Cert.ReferenceIdeal.Read Cert.PairDist Idealize.ShloMosaic Idealize.ShloMosaic.ValueIdx

/-- The row reduction of the squared entries, read at row `i`, is the squared norm of row `i`. -/
theorem v1_eq (x0 : (⟨S8192x32, .f32⟩ : BufTy).Contents (Elt Ideal)) (i : Fin 8192) :
    val_main_v1 (F := Ideal) x0 (ix1 i) = sqn x0 i := by
  rw [val_main_v1_apply, val_main_cst_apply]
  show Ideal.ofBits .f32 0x00000000#32 + _ = _
  rw [Ideal.ofBits_zero_f32, zero_add]
  unfold sqn
  refine Finset.sum_congr rfl fun k _ => ?_
  rw [val_main_v0_apply]
  have hi : idx_main_v1 (ix1 i) k = ix2 i k :=
    funext fun a => Fin.ext (by match a with | ⟨0, _⟩ => rfl | ⟨1, _⟩ => rfl)
  rw [hi]
  rfl

/-- The contraction of the matrix against its transpose, read at `(i, j)`, is the inner product of rows `i` and `j`. -/
theorem v3_eq (x0 : (⟨S8192x32, .f32⟩ : BufTy).Contents (Elt Ideal)) (i j : Fin 8192) :
    val_main_v3 (F := Ideal) x0 (ix2 i j) = gram x0 i j := by
  rw [val_main_v3_apply]
  unfold gram
  refine Finset.sum_congr rfl fun k _ => ?_
  rw [val_main_v2_apply]
  have hl : lidx_main_v3 (ix2 i j) k = ix2 i k :=
    funext fun a => Fin.ext (by match a with | ⟨0, _⟩ => rfl | ⟨1, _⟩ => rfl)
  have hr : idx_main_v2 (ridx_main_v3 (ix2 i j) k) = ix2 j k :=
    funext fun a => Fin.ext (by match a with | ⟨0, _⟩ => rfl | ⟨1, _⟩ => rfl)
  rw [hl, hr]

/-- The broadcast of the squared norms along the columns reads row `i`. -/
theorem v6_eq (x0 : (⟨S8192x32, .f32⟩ : BufTy).Contents (Elt Ideal)) (i j : Fin 8192) :
    val_main_v6 (F := Ideal) x0 (ix2 i j) = sqn x0 i := by
  rw [val_main_v6_apply, val_main_v4_apply]
  have hi : idx_main_v4 (idx_main_v6 (ix2 i j)) = ix1 i :=
    funext fun a => Fin.ext (by match a with | ⟨0, _⟩ => rfl)
  rw [hi, v1_eq]

/-- The broadcast of the squared norms along the rows reads row `j`. -/
theorem v7_eq (x0 : (⟨S8192x32, .f32⟩ : BufTy).Contents (Elt Ideal)) (i j : Fin 8192) :
    val_main_v7 (F := Ideal) x0 (ix2 i j) = sqn x0 j := by
  rw [val_main_v7_apply, val_main_v5_apply]
  have hi : idx_main_v5 (idx_main_v7 (ix2 i j)) = ix1 j :=
    funext fun a => Fin.ext (by match a with | ⟨0, _⟩ => rfl)
  rw [hi, v1_eq]

/-- The entry `(i, j)` of the clamped difference is the clamped squared distance of rows `i` and `j`. -/
theorem v13_eq (x0 : (⟨S8192x32, .f32⟩ : BufTy).Contents (Elt Ideal)) (i j : Fin 8192) :
    val_main_v13 (F := Ideal) x0 (ix2 i j) = dist x0 i j := by
  rw [val_main_v13_apply, val_main_v11_apply, val_main_v8_apply, val_main_v10_apply, val_main_v9_apply,
    val_main_cst_0_apply, val_main_v12_apply, val_main_cst_1_apply, v6_eq, v7_eq, v3_eq]
  show max ((sqn x0 i + sqn x0 j) - Ideal.ofBits .f32 0x40000000#32 * gram x0 i j) (Ideal.ofBits .f32 0x00000000#32) = _
  rw [Ideal.ofBits_zero_f32]
  rfl

/-- The entry `(i, j)` of the product with the weights is the weighted distance of the pair. -/
theorem v14_eq (x0 : (⟨S8192x32, .f32⟩ : BufTy).Contents (Elt Ideal))
    (x1 : (⟨S8192x8192, .f32⟩ : BufTy).Contents (Elt Ideal)) (i j : Fin 8192) :
    val_main_v14 (F := Ideal) x0 x1 (ix2 i j) = term x0 x1 i j := by
  rw [val_main_v14_apply, v13_eq]
  rfl

/-- The reduction over both axes is the sum over all pairs. -/
theorem v15_eq (x0 : (⟨S8192x32, .f32⟩ : BufTy).Contents (Elt Ideal))
    (x1 : (⟨S8192x8192, .f32⟩ : BufTy).Contents (Elt Ideal)) (i : S_.Idx) :
    val_main_v15 (F := Ideal) x0 x1 i = total x0 x1 := by
  rw [val_main_v15_apply, val_main_cst_2_apply]
  show Ideal.ofBits .f32 0x00000000#32 + _ = _
  rw [Ideal.ofBits_zero_f32, zero_add, sum_idx2]
  unfold total
  exact Finset.sum_congr rfl fun a _ => Finset.sum_congr rfl fun b _ => v14_eq x0 x1 a b

/-- The reference's result is `G` of its two arguments. -/
theorem ref_eq (x0 : (⟨Cert.ReferenceIdeal.S8192x32, .f32⟩ : BufTy).Contents (Elt Ideal))
    (x1 : (⟨Cert.ReferenceIdeal.S8192x8192, .f32⟩ : BufTy).Contents (Elt Ideal)) :
    Cert.ReferenceIdeal.Read.val_main_v16 (F := Ideal) x0 x1 = Cert.PairDist.G x0 x1 := by
  funext i
  rw [val_main_v16_apply, v15_eq, val_main_cst_3_apply]
  rfl

end Cert.ReferenceIdeal.RefValue

end
-- ==== Proof.lean ====
/-
  A weighted sum of pairwise squared distances, computed tile by tile, against the plain formula.

  For a point matrix Y (8192 rows, 32 coordinates) and a weight matrix W (8192 by 8192) both programs compute
      ( sum over i, j of  W i j * max( |y_i|^2 + |y_j|^2 - 2 <y_i, y_j> , 0 ) ) / 8192 .
  The reference forms the whole 8192 by 8192 matrix of clamped distances and sums it at once.  The kernel walks the
  rows in 64 tiles of 128: per tile it multiplies the tile's rows against all rows, adds the squared norms (computed
  once on the host, passed as a column and as a row), clamps, weights, sums over the columns and then over the tile's
  rows, and adds the result to a one-entry running total that tile 0 resets; the host divides the total by 8192.
  Over the extended reals the two are one number: the matrix product into a zero accumulator is the plain inner
  product, the change to a shorter float format before it is the identity, and regrouping the sum by tiles uses only
  that the addition is commutative and associative, so the precondition is never opened.

  The frames: the reference is host operations only; the kernel's two programs (as printed, and read over the
  extended reals) are one text in two namespaces, whose run is proved once for any float instance.  The kernel reads
  the point matrix through two windows, a tile of it and all of it; each window holds half of that array's share, and
  the array comes back whole and unchanged.
-/
import proofs.«149471_j5892695130791_1_alg».proof.Defs
import proofs.«149471_j5892695130791_1_alg».proof.Proof.Gen.Kernel
import proofs.«149471_j5892695130791_1_alg».proof.Proof.Gen.KernelIdeal
import proofs.«149471_j5892695130791_1_alg».proof.Proof.Gen.ReferenceIdeal
import proofs.«149471_j5892695130791_1_alg».proof.Proof.Gen.Pre_finite_inputs
import proofs.«149471_j5892695130791_1_alg».proof.Proof.Gen.ReferenceIdeal.Run
import proofs.«149471_j5892695130791_1_alg».proof.Proof.Gen.ReferenceIdeal.Read
import proofs.«149471_j5892695130791_1_alg».proof.Proof.K.Frame
import proofs.«149471_j5892695130791_1_alg».proof.Proof.KI.Frame
import proofs.«149471_j5892695130791_1_alg».proof.Proof.KIValue
import proofs.«149471_j5892695130791_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves both matrices unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: it is the kernel's own text read over the extended reals. -/
theorem preserves : Cert.preserves_Kernel_KernelIdeal := trivial

/-- Over the extended reals, from memories agreeing on the two matrices, both programs end with the weighted sum of
    clamped squared distances over 8192: the kernel's running total after its last tile, and the reference's one sum. -/
theorem algebraic : Cert.algebraic_KernelIdeal_ReferenceIdeal := by
  intro m ρ m' ρ' _ hagree
  refine ⟨fun c => Cert.PairDist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
